-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S128x128, .bf16⟩
  | .hbm, ⟨40, _⟩ => ⟨S128x128, .bf16⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S128x128, .bf16⟩
  | .hbm, ⟨57, _⟩ => ⟨S128x128, .bf16⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One SAGE layer with mean aggregation and a ReLU, as a function of arrays over the extended reals, index by index:

    layer agg d x Wl Wr b (r, c) = max( Σₖ (agg(r,k) / d(r)) · Wl(k,c) + Σₖ x(r,k) · Wr(k,c) + b(c), 0 )

  where `agg` is the neighbour sum, `d` the clamped degree, `x` the node features. The second form, `layerMul`,
  multiplies each aggregated entry by a per-row reciprocal column `inv(r,0)` instead of dividing by `d(r)`, reads
  the weights and the bias through rank-2 arrays, and is what a row-tiled kernel computes. The two agree when the
  reciprocal column is `1 / d` and no `d(r)` is zero: on the extended reals `a · (1 / d) = a / d` for every `a`
  as soon as `d ≠ 0`, at the infinities too, so no finiteness of the inputs is asked for.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Sage

/-- Node-feature arrays: 100000 nodes by 128 features. -/
abbrev NodeFeat : Shape := ⟨2, ![100000, 128]⟩
/-- A weight matrix. -/
abbrev Weight : Shape := ⟨2, ![128, 128]⟩
/-- One value per node. -/
abbrev PerNode : Shape := ⟨1, ![100000]⟩
/-- One value per node, as a column. -/
abbrev NodeCol : Shape := ⟨2, ![100000, 1]⟩
/-- A bias vector. -/
abbrev Bias : Shape := ⟨1, ![128]⟩
/-- A bias vector as a row. -/
abbrev BiasRow : Shape := ⟨2, ![1, 128]⟩

/-- Dividing by a nonzero extended real is multiplying by its reciprocal, whatever the dividend. -/
theorem mul_div_one (a d : EReal) (hd : d ≠ 0) : a * Ideal.div 1 d = Ideal.div a d := by
  unfold Ideal.div
  rw [if_neg hd, if_neg hd, one_mul]

/-- A degree clamped below by one is never zero. -/
theorem max_one_ne_zero (a : EReal) : max a 1 ≠ 0 :=
  ne_of_gt (lt_of_lt_of_le zero_lt_one (le_max_right a 1))

/-- The layer at row `r`, column `c`: the mean-aggregated row through `Wl`, the node's own row through `Wr`, the bias,
    clamped at zero. -/
def layerAt (agg : NodeFeat.Idx → EReal) (d : PerNode.Idx → EReal) (x : NodeFeat.Idx → EReal)
    (wl wr : Weight.Idx → EReal) (b : Bias.Idx → EReal) (r : Fin 100000) (c : Fin 128) : EReal :=
  max ((∑ k : Fin 128, Ideal.div (agg (ix2 r k)) (d (ix1 r)) * wl (ix2 k c))
        + (∑ k : Fin 128, x (ix2 r k) * wr (ix2 k c)) + b (ix1 c)) 0

/-- The layer as a whole array. -/
def layer (agg : NodeFeat.Idx → EReal) (d : PerNode.Idx → EReal) (x : NodeFeat.Idx → EReal)
    (wl wr : Weight.Idx → EReal) (b : Bias.Idx → EReal) : NodeFeat.Idx → EReal :=
  fun i => layerAt agg d x wl wr b (i 0) (i 1)

/-- The row-tiled form at row `r`, column `c`: each aggregated entry times the row's reciprocal, then the two products,
    the bias read off a one-row array. -/
def layerMulAt (agg : NodeFeat.Idx → EReal) (inv : NodeCol.Idx → EReal) (x : NodeFeat.Idx → EReal)
    (wl wr : Weight.Idx → EReal) (b : BiasRow.Idx → EReal) (r : Fin 100000) (c : Fin 128) : EReal :=
  max ((∑ k : Fin 128, (agg (ix2 r k) * inv (ix2 r (0 : Fin 1))) * wl (ix2 k c))
        + (∑ k : Fin 128, x (ix2 r k) * wr (ix2 k c)) + b (ix2 (0 : Fin 1) c)) 0

/-- The row-tiled form as a whole array. -/
def layerMul (agg : NodeFeat.Idx → EReal) (inv : NodeCol.Idx → EReal) (x : NodeFeat.Idx → EReal)
    (wl wr : Weight.Idx → EReal) (b : BiasRow.Idx → EReal) : NodeFeat.Idx → EReal :=
  fun i => layerMulAt agg inv x wl wr b (i 0) (i 1)

/-- The two forms agree when the reciprocal column is `1 / d`, the one-row bias is the bias, and no `d` is zero. -/
theorem layerMul_eq_layer (agg : NodeFeat.Idx → EReal) (inv : NodeCol.Idx → EReal) (d : PerNode.Idx → EReal)
    (x : NodeFeat.Idx → EReal) (wl wr : Weight.Idx → EReal) (brow : BiasRow.Idx → EReal) (b : Bias.Idx → EReal)
    (hinv : ∀ r : Fin 100000, inv (ix2 r (0 : Fin 1)) = Ideal.div 1 (d (ix1 r)))
    (hd : ∀ r : Fin 100000, d (ix1 r) ≠ 0)
    (hb : ∀ c : Fin 128, brow (ix2 (0 : Fin 1) c) = b (ix1 c)) :
    layerMul agg inv x wl wr brow = layer agg d x wl wr b := by
  funext i
  unfold layerMul layer layerMulAt layerAt
  rw [hb (i 1)]
  congr 2
  congr 1
  refine Finset.sum_congr rfl fun k _ => ?_
  rw [hinv (i 0), mul_div_one _ _ (hd (i 0))]

end Cert.Sage

end
-- ==== Proof.KBody.lean ====
/-
  What one grid point of the combine kernel leaves in its output block, entry by entry, over the extended reals.

  The body multiplies each aggregated entry of the point's 5000 rows by the row's reciprocal degree, takes the two
  matrix products into zero accumulators, adds the bias row and clamps at zero; narrowing to bfloat16 is the identity
  at the ideal values. So entry (r, q) of the block is
    max( Σₖ (agg(r,k) · inv(r,0)) · Wl(k,q) + Σₖ x(r,k) · Wr(k,q) + b(0,q), 0 ).
  Both launches of the kernel compute this; the second one's body differs only in a shape cast that changes nothing.
-/
import proofs.«425203_j3289944948994_4_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators
open Idealize.ShloMosaic Idealize.ShloMosaic.TcCoe Idealize.SL.Sem
open Idealize.ShloMosaic.ValueIdx

namespace Cert.KernelIdeal.Body

open Cert.KernelIdeal Cert.KernelIdeal.Gen

/-- A block's whole rectangle starts at the origin. -/
theorem hz : (![0, 0] : Fin 2 → Nat) = fun _ => 0 := funext fun a => by fin_cases a <;> rfl

/-! ## The matrix unit's product at a row and a column -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into a zero accumulator, entry (r, q) of the product is the sum over `k` of row `r` of the left operand against column `q` of the right. -/
theorem matmul_zero_apply (l : FVec Ideal S5000x128 .bf16) (w : FVec Ideal S128x128 .bf16) (r : Fin 5000) (q : Fin 128) :
    matmul dot_S5000x128_S128x128_S5000x128_1_0_0_1_n_n none l w (constant S5000x128 .f32 0x00000000#32) (ix2 r q)
      = ∑ k : Fin 128, l (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- A column broadcast along its rows' lanes reads the row's one entry. -/
theorem colBcast_apply (v : FVec Ideal S5000x1 .f32) (r : Fin 5000) (k : Fin 128) :
    broadcastTo S5000x128 v broadcasts_S5000x1_S5000x128 (ix2 r k) = v (ix2 r (0 : Fin 1)) :=
  broadcastTo_apply v broadcasts_S5000x1_S5000x128 (ix2 r k) (ix2 r (0 : Fin 1)) fun ax =>
    match ax with
    | ⟨0, _⟩ => by show r.val = if (5000 : Nat) = 1 then 0 else r.val; rw [if_neg (by decide)]
    | ⟨1, _⟩ => by show 0 = if (1 : Nat) = 1 then 0 else k.val; rw [if_pos rfl]

/-- The value the body stores, at row `r` and column `q` of the block. -/
def blockAt (x0 : Vec Ideal S5000x128 .f32) (x1 : Vec Ideal S5000x1 .f32) (x2 : Vec Ideal S5000x128 .f32)
    (x3 x4 : Vec Ideal S128x128 .bf16) (x5 : Vec Ideal S1x128 .f32) (r : Fin 5000) (q : Fin 128) : EReal :=
  max ((∑ k : Fin 128, (x0 (ix2 r k) * x1 (ix2 r (0 : Fin 1))) * x3 (ix2 k q))
      + (∑ k : Fin 128, x2 (ix2 r k) * x4 (ix2 k q)) + x5 (ix2 (0 : Fin 1) q)) 0

/-- The first launch's block after the body. -/
theorem out0_6_apply (x0 : Vec Ideal S5000x128 .f32) (x1 : Vec Ideal S5000x1 .f32) (x2 : Vec Ideal S5000x128 .f32)
    (x3 x4 : Vec Ideal S128x128 .bf16) (x5 : Vec Ideal S1x128 .f32) (r : Fin 5000) (q : Fin 128) :
    out0_6 (F := Ideal) x0 x1 x2 x3 x4 x5 (ix2 r q) = blockAt x0 x1 x2 x3 x4 x5 r q := by
  unfold out0_6 blockAt
  rw [View.canon_unit_zero hz]
  simp only [View.ld_unit_zero (S := S5000x128) hz, View.ld_unit_zero (S := S5000x1) hz, View.ld_unit_zero (S := S128x128) hz, View.ld_unit_zero (S := S1x128) hz]
  unfold k0_pay1
  rw [maximumf_apply, addf_apply, addf_apply, matmul_zero_apply, matmul_zero_apply, broadcast_apply,
    broadcastTo_1b_ab_apply]
  simp only [shapeCast_self, truncf_apply, mulf_apply, colBcast_apply]
  show max _ (Ideal.ofBits .f32 0x00000000#32) = _
  rw [Ideal.ofBits_zero_f32]

/-- The second launch's block after the body. -/
theorem out1_6_apply (x0 : Vec Ideal S5000x128 .f32) (x1 : Vec Ideal S5000x1 .f32) (x2 : Vec Ideal S5000x128 .f32)
    (x3 x4 : Vec Ideal S128x128 .bf16) (x5 : Vec Ideal S1x128 .f32) (r : Fin 5000) (q : Fin 128) :
    out1_6 (F := Ideal) x0 x1 x2 x3 x4 x5 (ix2 r q) = blockAt x0 x1 x2 x3 x4 x5 r q := by
  unfold out1_6 blockAt
  rw [View.canon_unit_zero hz]
  simp only [View.ld_unit_zero (S := S5000x128) hz, View.ld_unit_zero (S := S5000x1) hz, View.ld_unit_zero (S := S128x128) hz, View.ld_unit_zero (S := S1x128) hz]
  unfold k1_pay1
  rw [maximumf_apply, addf_apply, addf_apply, matmul_zero_apply, matmul_zero_apply, broadcast_apply,
    broadcastTo_1b_ab_apply]
  simp only [shapeCast_self, truncf_apply, mulf_apply, colBcast_apply]
  show max _ (Ideal.ofBits .f32 0x00000000#32) = _
  rw [Ideal.ofBits_zero_f32]

end Cert.KernelIdeal.Body

end
-- ==== Proof.KRegion0.lean ====
/-
  Launch 0 of the combine kernel, as a whole-array function of what its operand arrays hold when it is entered.

  The grid has 20 points; point `t` reads rows 5000·t … 5000·t + 4999 of the aggregate, of the reciprocal-degree column
  and of the features, the two weight matrices and the bias row whole, and writes back rows 5000·t … of the result. What it
  writes is the row-tiled layer `Sage.layerMul` of the whole arrays read through the block, and the 20 blocks tile the
  result, so the result array ends holding `Sage.layerMul` of the operand arrays. Nothing is assumed of the arrays'
  contents: the entry contents `V` are a parameter.
-/
import proofs.«425203_j3289944948994_4_alg».proof.Proof.Gen.KernelIdeal.Frame
import proofs.«425203_j3289944948994_4_alg».proof.Proof.Spec
import proofs.«425203_j3289944948994_4_alg».proof.Proof.KBody
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen Cert.KernelIdeal.Body

variable (V : (c : Dev nD) → (b : Ref sig .tc) → Buf (Elt Ideal) ((c : Thread nD τ).loc b))

/-- The printed index maps over the grid: the row-tiled windows sit at block (t, 0), the resident ones at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block at a point, read off its array -/

/-- The aggregate's block: rows 5000·t + r. -/
theorem aggBlk (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v22 : S100000x128.Idx → EReal) i := by
  obtain ⟨e0, e1, -⟩ := idx_facts t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The reciprocal-degree column's block. -/
theorem invBlk (c : Dev nD) (t : Fin cfg0.N) (y : S5000x1.Idx) (i : S100000x1.Idx)
    (h0 : (i 0).val = 5000 * t.val + (y 0).val) (h1 : (i 1).val = (y 1).val) :
    (iblk0 V c 1 t : Vec Ideal S5000x1 .f32) y = (V c main_v12 : S100000x1.Idx → EReal) i := by
  obtain ⟨-, -, e0, e1, -⟩ := idx_facts t
  unfold iblk0
  rw [View.read_apply]
  show V c main_v12 _ = V c main_v12 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The features' block. -/
theorem featBlk (c : Dev nD) (t : Fin cfg0.N) (y : S5000x128.Idx) (i : S100000x128.Idx)
    (h0 : (i 0).val = 5000 * t.val + (y 0).val) (h1 : (i 1).val = (y 1).val) :
    (iblk0 V c 2 t : Vec Ideal S5000x128 .f32) y = (V c main_arg0 : S100000x128.Idx → EReal) i := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 128 + 1 * (y 1).val = (i 1).val; rw [e1, h1]; omega

/-- The first weight matrix, whole at every point. -/
theorem wlBlk (c : Dev nD) (t : Fin cfg0.N) (y : S128x128.Idx) :
    (iblk0 V c 3 t : Vec Ideal S128x128 .bf16) y = (V c main_v24 : S128x128.Idx → EReal) y := by
  obtain ⟨-, -, -, -, -, -, e0, e1, -⟩ := idx_facts t
  unfold iblk0
  rw [View.read_apply]
  show V c main_v24 _ = V c main_v24 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second weight matrix, whole at every point. -/
theorem wrBlk (c : Dev nD) (t : Fin cfg0.N) (y : S128x128.Idx) :
    (iblk0 V c 4 t : Vec Ideal S128x128 .bf16) y = (V c main_v25 : S128x128.Idx → EReal) y := by
  obtain ⟨-, -, -, -, -, -, -, -, e0, e1, -⟩ := idx_facts t
  unfold iblk0
  rw [View.read_apply]
  show V c main_v25 _ = V c main_v25 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The bias row, whole at every point. -/
theorem biasBlk (c : Dev nD) (t : Fin cfg0.N) (y : S1x128.Idx) :
    (iblk0 V c 5 t : Vec Ideal S1x128 .f32) y = (V c main_v23 : S1x128.Idx → EReal) y := by
  obtain ⟨-, -, -, -, -, -, -, -, -, -, e0, e1, -⟩ := idx_facts t
  unfold iblk0
  rw [View.read_apply]
  show V c main_v23 _ = V c main_v23 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## The result array -/

/-- What the result array ends holding: the row-tiled layer of the operand arrays as the launch finds them. -/
abbrev value (c : Dev nD) : S100000x128.Idx → EReal :=
  Cert.Sage.layerMul (V c main_v22) (V c main_v12) (V c main_arg0) (V c main_v24) (V c main_v25) (V c main_v23)

/-- What point `t` writes back is block `t` of `value`. -/
theorem flushed_eq (c : Dev nD) (t : Fin cfg0.N) :
    (dat0 V c).flushed 6 t = ((cfg0.win 6).blk t).view.read (Elt Ideal) (value V c) := by
  show (cfg0.win 6).cut (grid0.coords t) ((dat0 V c).after 6 t) = _
  rw [after0_6]
  funext j
  obtain ⟨r, q, rfl⟩ : ∃ (r : Fin 5000) (q : Fin 128), j = ix2 r q := ⟨j 0, j 1, eq_ix2 j⟩
  have ht : t.val < 20 := t.isLt.trans_eq N_0
  obtain ⟨R, hR⟩ : ∃ R : Fin 100000, R.val = 5000 * t.val + r.val := ⟨⟨5000 * t.val + r.val, by have := r.isLt; omega⟩, rfl⟩
  obtain ⟨-, -, -, -, -, -, -, -, -, -, -, -, e0, e1⟩ := idx_facts t
  have hemb : ((cfg0.win 6).blk t).view.emb (ix2 r q) = (ix2 R q : S100000x128.Idx) := by
    funext a
    apply Fin.ext
    match a with
    | ⟨0, _⟩ => show win0_6.index t (0 : Fin 2) * 5000 + 1 * r.val = R.val; rw [e0, hR]; omega
    | ⟨1, _⟩ => show win0_6.index t (1 : Fin 2) * 128 + 1 * q.val = q.val; rw [e1]; omega
  rw [View.read_apply, hemb]
  show out0_6 (iblk0 V c 0 t) (iblk0 V c 1 t) (iblk0 V c 2 t) (iblk0 V c 3 t) (iblk0 V c 4 t) (iblk0 V c 5 t) (ix2 r q)
    = Cert.Sage.layerMulAt (V c main_v22) (V c main_v12) (V c main_arg0) (V c main_v24) (V c main_v25) (V c main_v23) R q
  refine (out0_6_apply (iblk0 V c 0 t) (iblk0 V c 1 t) (iblk0 V c 2 t) (iblk0 V c 3 t) (iblk0 V c 4 t) (iblk0 V c 5 t) r q).trans ?_
  unfold blockAt Cert.Sage.layerMulAt
  have hinv := invBlk V c t (ix2 r (0 : Fin 1)) (ix2 R (0 : Fin 1)) hR rfl
  have hbias := biasBlk V c t (ix2 (0 : Fin 1) q)
  have hagg : ∀ k : Fin 128, (iblk0 V c 0 t : Vec Ideal S5000x128 .f32) (ix2 r k) = (V c main_v22 : S100000x128.Idx → EReal) (ix2 R k) :=
    fun k => aggBlk V c t (ix2 r k) (ix2 R k) hR rfl
  have hfeat : ∀ k : Fin 128, (iblk0 V c 2 t : Vec Ideal S5000x128 .f32) (ix2 r k) = (V c main_arg0 : S100000x128.Idx → EReal) (ix2 R k) :=
    fun k => featBlk V c t (ix2 r k) (ix2 R k) hR rfl
  have hwl : ∀ k : Fin 128, (iblk0 V c 3 t : Vec Ideal S128x128 .bf16) (ix2 k q) = (V c main_v24 : S128x128.Idx → EReal) (ix2 k q) :=
    fun k => wlBlk V c t (ix2 k q)
  have hwr : ∀ k : Fin 128, (iblk0 V c 4 t : Vec Ideal S128x128 .bf16) (ix2 k q) = (V c main_v25 : S128x128.Idx → EReal) (ix2 k q) :=
    fun k => wrBlk V c t (ix2 k q)
  simp only [hinv, hbias, hagg, hfeat, hwl, hwr]

/-- An index of the result array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Row `n` of the result is in block `n / 5000`: the blocks tile the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, -, -, e0, e1⟩ := idx_facts t
  have htv : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 128 ≤ (i 1).val ∧ (i 1).val < win0_6.index t (1 : Fin 2) * 128 + 128; rw [e1]; omega

/-- The result array after the launch. -/
theorem final (c : Dev nD) : (dat0 V c).arrAt 6 cfg0.N = value V c :=
  (dat0 V c).arrAt_eq_of_cover 6 (value V c) (fun t _ => flushed_eq V c t) cover

end Cert.KernelIdeal.Region0

end
-- ==== Proof.KRegion1.lean ====
/-
  Launch 1 of the combine kernel, as a whole-array function of what its operand arrays hold when it is entered.

  The grid has 20 points; point `t` reads rows 5000·t … 5000·t + 4999 of the aggregate, of the reciprocal-degree column
  and of the features, the two weight matrices and the bias row whole, and writes back rows 5000·t … of the result. What it
  writes is the row-tiled layer `Sage.layerMul` of the whole arrays read through the block, and the 20 blocks tile the
  result, so the result array ends holding `Sage.layerMul` of the operand arrays. Nothing is assumed of the arrays'
  contents: the entry contents `V` are a parameter.
-/
import proofs.«425203_j3289944948994_4_alg».proof.Proof.Gen.KernelIdeal.Frame
import proofs.«425203_j3289944948994_4_alg».proof.Proof.Spec
import proofs.«425203_j3289944948994_4_alg».proof.Proof.KBody
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen Cert.KernelIdeal.Body

variable (V : (c : Dev nD) → (b : Ref sig .tc) → Buf (Elt Ideal) ((c : Thread nD τ).loc b))

/-- The printed index maps over the grid: the row-tiled windows sit at block (t, 0), the resident ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each window's block at a point, read off its array -/

/-- The aggregate's block: rows 5000·t + r. -/
theorem aggBlk (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v36 : S100000x128.Idx → EReal) i := by
  obtain ⟨e0, e1, -⟩ := idx_facts t
  unfold iblk1
  rw [View.read_apply]
  show V c main_v36 _ = V c main_v36 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The reciprocal-degree column's block. -/
theorem invBlk (c : Dev nD) (t : Fin cfg1.N) (y : S5000x1.Idx) (i : S100000x1.Idx)
    (h0 : (i 0).val = 5000 * t.val + (y 0).val) (h1 : (i 1).val = (y 1).val) :
    (iblk1 V c 1 t : Vec Ideal S5000x1 .f32) y = (V c main_v12 : S100000x1.Idx → EReal) i := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The features' block. -/
theorem featBlk (c : Dev nD) (t : Fin cfg1.N) (y : S5000x128.Idx) (i : S100000x128.Idx)
    (h0 : (i 0).val = 5000 * t.val + (y 0).val) (h1 : (i 1).val = (y 1).val) :
    (iblk1 V c 2 t : Vec Ideal S5000x128 .f32) y = (V c main_v26 : S100000x128.Idx → EReal) i := by
  obtain ⟨-, -, -, -, e0, e1, -⟩ := idx_facts t
  unfold iblk1
  rw [View.read_apply]
  show V c main_v26 _ = V c main_v26 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 128 + 1 * (y 1).val = (i 1).val; rw [e1, h1]; omega

/-- The first weight matrix, whole at every point. -/
theorem wlBlk (c : Dev nD) (t : Fin cfg1.N) (y : S128x128.Idx) :
    (iblk1 V c 3 t : Vec Ideal S128x128 .bf16) y = (V c main_v38 : S128x128.Idx → EReal) y := by
  obtain ⟨-, -, -, -, -, -, e0, e1, -⟩ := idx_facts t
  unfold iblk1
  rw [View.read_apply]
  show V c main_v38 _ = V c main_v38 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second weight matrix, whole at every point. -/
theorem wrBlk (c : Dev nD) (t : Fin cfg1.N) (y : S128x128.Idx) :
    (iblk1 V c 4 t : Vec Ideal S128x128 .bf16) y = (V c main_v39 : S128x128.Idx → EReal) y := by
  obtain ⟨-, -, -, -, -, -, -, -, e0, e1, -⟩ := idx_facts t
  unfold iblk1
  rw [View.read_apply]
  show V c main_v39 _ = V c main_v39 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The bias row, whole at every point. -/
theorem biasBlk (c : Dev nD) (t : Fin cfg1.N) (y : S1x128.Idx) :
    (iblk1 V c 5 t : Vec Ideal S1x128 .f32) y = (V c main_v37 : S1x128.Idx → EReal) y := by
  obtain ⟨-, -, -, -, -, -, -, -, -, -, e0, e1, -⟩ := idx_facts t
  unfold iblk1
  rw [View.read_apply]
  show V c main_v37 _ = V c main_v37 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-! ## The result array -/

/-- What the result array ends holding: the row-tiled layer of the operand arrays as the launch finds them. -/
abbrev value (c : Dev nD) : S100000x128.Idx → EReal :=
  Cert.Sage.layerMul (V c main_v36) (V c main_v12) (V c main_v26) (V c main_v38) (V c main_v39) (V c main_v37)

/-- What point `t` writes back is block `t` of `value`. -/
theorem flushed_eq (c : Dev nD) (t : Fin cfg1.N) :
    (dat1 V c).flushed 6 t = ((cfg1.win 6).blk t).view.read (Elt Ideal) (value V c) := by
  show (cfg1.win 6).cut (grid1.coords t) ((dat1 V c).after 6 t) = _
  rw [after1_6]
  funext j
  obtain ⟨r, q, rfl⟩ : ∃ (r : Fin 5000) (q : Fin 128), j = ix2 r q := ⟨j 0, j 1, eq_ix2 j⟩
  have ht : t.val < 20 := t.isLt.trans_eq N_1
  obtain ⟨R, hR⟩ : ∃ R : Fin 100000, R.val = 5000 * t.val + r.val := ⟨⟨5000 * t.val + r.val, by have := r.isLt; omega⟩, rfl⟩
  obtain ⟨-, -, -, -, -, -, -, -, -, -, -, -, e0, e1⟩ := idx_facts t
  have hemb : ((cfg1.win 6).blk t).view.emb (ix2 r q) = (ix2 R q : S100000x128.Idx) := by
    funext a
    apply Fin.ext
    match a with
    | ⟨0, _⟩ => show win1_6.index t (0 : Fin 2) * 5000 + 1 * r.val = R.val; rw [e0, hR]; omega
    | ⟨1, _⟩ => show win1_6.index t (1 : Fin 2) * 128 + 1 * q.val = q.val; rw [e1]; omega
  rw [View.read_apply, hemb]
  show out1_6 (iblk1 V c 0 t) (iblk1 V c 1 t) (iblk1 V c 2 t) (iblk1 V c 3 t) (iblk1 V c 4 t) (iblk1 V c 5 t) (ix2 r q)
    = Cert.Sage.layerMulAt (V c main_v36) (V c main_v12) (V c main_v26) (V c main_v38) (V c main_v39) (V c main_v37) R q
  refine (out1_6_apply (iblk1 V c 0 t) (iblk1 V c 1 t) (iblk1 V c 2 t) (iblk1 V c 3 t) (iblk1 V c 4 t) (iblk1 V c 5 t) r q).trans ?_
  unfold blockAt Cert.Sage.layerMulAt
  have hinv := invBlk V c t (ix2 r (0 : Fin 1)) (ix2 R (0 : Fin 1)) hR rfl
  have hbias := biasBlk V c t (ix2 (0 : Fin 1) q)
  have hagg : ∀ k : Fin 128, (iblk1 V c 0 t : Vec Ideal S5000x128 .f32) (ix2 r k) = (V c main_v36 : S100000x128.Idx → EReal) (ix2 R k) :=
    fun k => aggBlk V c t (ix2 r k) (ix2 R k) hR rfl
  have hfeat : ∀ k : Fin 128, (iblk1 V c 2 t : Vec Ideal S5000x128 .f32) (ix2 r k) = (V c main_v26 : S100000x128.Idx → EReal) (ix2 R k) :=
    fun k => featBlk V c t (ix2 r k) (ix2 R k) hR rfl
  have hwl : ∀ k : Fin 128, (iblk1 V c 3 t : Vec Ideal S128x128 .bf16) (ix2 k q) = (V c main_v38 : S128x128.Idx → EReal) (ix2 k q) :=
    fun k => wlBlk V c t (ix2 k q)
  have hwr : ∀ k : Fin 128, (iblk1 V c 4 t : Vec Ideal S128x128 .bf16) (ix2 k q) = (V c main_v39 : S128x128.Idx → EReal) (ix2 k q) :=
    fun k => wrBlk V c t (ix2 k q)
  simp only [hinv, hbias, hagg, hfeat, hwl, hwr]

/-- An index of the result array is in point `t`'s block iff each coordinate is in the block's range. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40).slice (win1_6.rect t)).set ↔ _
  rw [View.set_slice_whole, Rect.mem_set_unit]
  exact Iff.rfl

/-- Row `n` of the result is in block `n / 5000`: the blocks tile the array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨-, -, -, -, -, -, -, -, -, -, -, -, e0, e1⟩ := idx_facts t
  have htv : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, htv]; omega
  | ⟨1, _⟩ => show win1_6.index t (1 : Fin 2) * 128 ≤ (i 1).val ∧ (i 1).val < win1_6.index t (1 : Fin 2) * 128 + 128; rw [e1]; omega

/-- The result array after the launch. -/
theorem final (c : Dev nD) : (dat1 V c).arrAt 6 cfg1.N = value V c :=
  (dat1 V c).arrAt_eq_of_cover 6 (value V c) (fun t _ => flushed_eq V c t) cover

end Cert.KernelIdeal.Region1

end
-- ==== Proof.KHost.lean ====
/-
  The host side of the kernel's program: what each launch's operand arrays hold when the launch is entered.

  Before the first launch the host computes the in-degree of every node, its clamp at one and the reciprocal of that as a
  column, the neighbour sum of the features, the two weight matrices narrowed to bfloat16 and the bias as a row. Between
  the launches it computes the neighbour sum of the first launch's result and narrows the second layer's weights. Each
  array at a launch's entry is read off the fold of the host operations as a term of the buffers the stretch starts from;
  the gather and the scatter stay unopened.
-/
import proofs.«425203_j3289944948994_4_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- Row 0 of the edge list: the sources. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
/-- Row 1 of the edge list: the destinations. -/
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour sum over given source and destination rows: row `dst(j)` collects row `src(j)` of `h`, a negative source
    id wrapped by the node count. -/
def nbrSumRows (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The in-degree over given destination rows, clamped below by one. -/
def degClampRows (dst : (⟨S1600000, .i32⟩ : BufTy).Contents (Elt F)) : (⟨S100000, .f32⟩ : BufTy).Contents (Elt F) :=
  maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- One over the clamped degree, as a column. -/
def invDegCol (d : (⟨S100000, .f32⟩ : BufTy).Contents (Elt F)) : (⟨S100000x1, .f32⟩ : BufTy).Contents (Elt F) :=
  shapeCast _ (Host.divf (broadcastInDim S100000 ![] bcast_S_S100000 (constant S_ .f32 0x3F800000#32)) d) shapeCasts_S100000_S100000x1

/-- A weight matrix narrowed to bfloat16. -/
def narrow (w : (⟨S128x128, .f32⟩ : BufTy).Contents (Elt F)) : (⟨S128x128, .bf16⟩ : BufTy).Contents (Elt F) :=
  truncf .bf16 w bitsLt_bf16_f32

/-- A bias vector as a one-row array. -/
def biasRow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ) (ρ : Dev nD → PrngReg)

/-! ## At the first launch's entry -/

theorem V1_src (c : Dev nD) : W1 m ρ c (Proc.devRef .tc main_v1) = edgeRow0 (m ((c : Thread nD τ).loc main_arg1)) := by
  show StableHlo.after hostOps0 (W0 m ρ c) (Proc.devRef .tc main_v1) = _
  after_results_simp
  rfl

theorem V1_dst (c : Dev nD) : W1 m ρ c (Proc.devRef .tc main_v3) = edgeRow1 (m ((c : Thread nD τ).loc main_arg1)) := by
  show StableHlo.after hostOps0 (W0 m ρ c) (Proc.devRef .tc main_v3) = _
  after_results_simp
  rfl

theorem V1_agg (c : Dev nD) : V1 m ρ c main_v22
    = nbrSumRows (edgeRow0 (m ((c : Thread nD τ).loc main_arg1))) (edgeRow1 (m ((c : Thread nD τ).loc main_arg1))) (m ((c : Thread nD τ).loc main_arg0)) := by
  show StableHlo.after hostOps0 (W0 m ρ c) (Proc.devRef .tc main_v22) = _
  after_results_simp
  rfl

theorem V1_inv (c : Dev nD) : V1 m ρ c main_v12 = invDegCol (degClampRows (edgeRow1 (m ((c : Thread nD τ).loc main_arg1)))) := by
  show StableHlo.after hostOps0 (W0 m ρ c) (Proc.devRef .tc main_v12) = _
  after_results_simp
  rfl

theorem V1_feat (c : Dev nD) : V1 m ρ c main_arg0 = m ((c : Thread nD τ).loc main_arg0) := by
  show StableHlo.after hostOps0 (W0 m ρ c) (Proc.devRef .tc main_arg0) = _
  after_results_simp

theorem V1_wl (c : Dev nD) : V1 m ρ c main_v24 = narrow (m ((c : Thread nD τ).loc main_arg2)) := by
  show StableHlo.after hostOps0 (W0 m ρ c) (Proc.devRef .tc main_v24) = _
  after_results_simp
  rfl

theorem V1_wr (c : Dev nD) : V1 m ρ c main_v25 = narrow (m ((c : Thread nD τ).loc main_arg3)) := by
  show StableHlo.after hostOps0 (W0 m ρ c) (Proc.devRef .tc main_v25) = _
  after_results_simp
  rfl

theorem V1_bias (c : Dev nD) : V1 m ρ c main_v23 = biasRow (m ((c : Thread nD τ).loc main_arg4)) := by
  show StableHlo.after hostOps0 (W0 m ρ c) (Proc.devRef .tc main_v23) = _
  after_results_simp
  rfl

/-- The second layer's arguments pass the first stretch untouched. -/
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## At the second launch's entry, over what the first launch left (`W2`) -/

theorem V3_agg (c : Dev nD) : V3 m ρ c main_v36
    = nbrSumRows (W2 m ρ c (Proc.devRef .tc main_v1)) (W2 m ρ c (Proc.devRef .tc main_v3)) (W2 m ρ c (Proc.devRef .tc main_v26)) := by
  show StableHlo.after hostOps1 (W2 m ρ c) (Proc.devRef .tc main_v36) = _
  after_results_simp
  rfl

theorem V3_inv (c : Dev nD) : V3 m ρ c main_v12 = W2 m ρ c (Proc.devRef .tc main_v12) := by
  show StableHlo.after hostOps1 (W2 m ρ c) (Proc.devRef .tc main_v12) = _
  after_results_simp

theorem V3_feat (c : Dev nD) : V3 m ρ c main_v26 = W2 m ρ c (Proc.devRef .tc main_v26) := by
  show StableHlo.after hostOps1 (W2 m ρ c) (Proc.devRef .tc main_v26) = _
  after_results_simp

theorem V3_wl (c : Dev nD) : V3 m ρ c main_v38 = narrow (W2 m ρ c (Proc.devRef .tc main_arg5)) := by
  show StableHlo.after hostOps1 (W2 m ρ c) (Proc.devRef .tc main_v38) = _
  after_results_simp
  rfl

theorem V3_wr (c : Dev nD) : V3 m ρ c main_v39 = narrow (W2 m ρ c (Proc.devRef .tc main_arg6)) := by
  show StableHlo.after hostOps1 (W2 m ρ c) (Proc.devRef .tc main_v39) = _
  after_results_simp
  rfl

theorem V3_bias (c : Dev nD) : V3 m ρ c main_v37 = biasRow (W2 m ρ c (Proc.devRef .tc main_arg7)) := by
  show StableHlo.after hostOps1 (W2 m ρ c) (Proc.devRef .tc main_v37) = _
  after_results_simp
  rfl

/-! ## What the first launch left, buffer by buffer -/

/-- A buffer that is none of the first launch's arrays is as the launch found it. -/
theorem W2_src (c : Dev nD) : W2 m ρ c (Proc.devRef .tc main_v1) = edgeRow0 (m ((c : Thread nD τ).loc main_arg1)) :=
  (W2_of_ne m ρ c main_v1 (by decide)).trans (V1_src m ρ c)
theorem W2_dst (c : Dev nD) : W2 m ρ c (Proc.devRef .tc main_v3) = edgeRow1 (m ((c : Thread nD τ).loc main_arg1)) :=
  (W2_of_ne m ρ c main_v3 (by decide)).trans (V1_dst m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-- The reciprocal-degree column is an input of the first launch: it leaves it as it found it. -/
theorem W2_inv (c : Dev nD) : W2 m ρ c (Proc.devRef .tc main_v12) = V1 m ρ c main_v12 :=
  (W2_arr m ρ c 1).trans (((dat0 (V1 m ρ) c).arrAt_in 1 rfl _).trans (A_eq0 (V1 m ρ) c 1))

/-- The first launch's result array is what its write-backs leave. -/
theorem W2_out (c : Dev nD) : W2 m ρ c (Proc.devRef .tc main_v26) = (dat0 (V1 m ρ) c).arrAt 6 cfg0.N :=
  W2_arr m ρ c 6

end Cert.KernelIdeal.Host

end
-- ==== Proof.KValue.lean ====
/-
  The kernel program's result array, at the ideal values, as the row-tiled layer applied twice.

  The first launch is entered with the neighbour sum of the features, the reciprocal-degree column, the features, the
  narrowed weights and the bias row in its operand arrays, so it leaves `hidden`: the row-tiled layer of those. The second
  launch is entered with the neighbour sum of `hidden`, the same reciprocal-degree column (an input of the first launch,
  left as found), `hidden` itself and the second layer's weights and bias, so the result array ends at `result`.
-/
import proofs.«425203_j3289944948994_4_alg».proof.Proof.KRun
import proofs.«425203_j3289944948994_4_alg».proof.Proof.KRegion0
import proofs.«425203_j3289944948994_4_alg».proof.Proof.KRegion1
import proofs.«425203_j3289944948994_4_alg».proof.Proof.KHost

set_option maxRecDepth 16384

noncomputable section

open Idealize.ShloMosaic Idealize.ShloMosaic.TcCoe Idealize.SL.Sem

namespace Cert.KernelIdeal.Result

open Cert.KernelIdeal Cert.KernelIdeal.Gen Cert.KernelIdeal.Host

variable (m : (ℓ : Loc nD τ sig) → Buf (Elt Ideal) ℓ) (ρ : Dev nD → PrngReg)

/-- The row-tiled layer over the host's terms: the neighbour sum of `h` over the edge list `e`, the reciprocal of the clamped
    degree, `h`, the narrowed weights, the bias row. -/
def tiledLayer (e : (⟨S2x1600000, .i32⟩ : BufTy).Contents (Elt Ideal)) (h : (⟨S100000x128, .f32⟩ : BufTy).Contents (Elt Ideal))
    (wl wr : (⟨S128x128, .f32⟩ : BufTy).Contents (Elt Ideal)) (b : (⟨S128, .f32⟩ : BufTy).Contents (Elt Ideal)) :
    (⟨S100000x128, .f32⟩ : BufTy).Contents (Elt Ideal) :=
  Cert.Sage.layerMul (nbrSumRows (edgeRow0 e) (edgeRow1 e) h) (invDegCol (degClampRows (edgeRow1 e))) h (narrow wl) (narrow wr) (biasRow b)

/-- What the first launch leaves in its result array. -/
def hidden (c : Dev nD) : (⟨S100000x128, .f32⟩ : BufTy).Contents (Elt Ideal) :=
  tiledLayer (m ((c : Thread nD τ).loc main_arg1)) (m ((c : Thread nD τ).loc main_arg0))
    (m ((c : Thread nD τ).loc main_arg2)) (m ((c : Thread nD τ).loc main_arg3)) (m ((c : Thread nD τ).loc main_arg4))

/-- What the second launch leaves in the program's result array. -/
def result (c : Dev nD) : (⟨S100000x128, .f32⟩ : BufTy).Contents (Elt Ideal) :=
  tiledLayer (m ((c : Thread nD τ).loc main_arg1)) (hidden m c)
    (m ((c : Thread nD τ).loc main_arg5)) (m ((c : Thread nD τ).loc main_arg6)) (m ((c : Thread nD τ).loc main_arg7))

/-- The first launch's result array after its 20 write-backs. -/
theorem first_out (c : Dev nD) : (dat0 (V1 m ρ) c).arrAt 6 cfg0.N = hidden m c := by
  refine (Cert.KernelIdeal.Region0.final (V1 m ρ) c).trans ?_
  show Cert.Sage.layerMul (V1 m ρ c main_v22) (V1 m ρ c main_v12) (V1 m ρ c main_arg0) (V1 m ρ c main_v24) (V1 m ρ c main_v25) (V1 m ρ c main_v23) = _
  rw [V1_agg m ρ c, V1_inv m ρ c, V1_feat m ρ c, V1_wl m ρ c, V1_wr m ρ c, V1_bias m ρ c]
  rfl

/-- The program's result buffer at the last boundary. -/
theorem second_out (c : Dev nD) : W4 m ρ c (Proc.devRef .tc main_v40) = result m c := by
  refine (W4_arr m ρ c 6).trans ?_
  refine (Cert.KernelIdeal.Region1.final (V3 m ρ) c).trans ?_
  show Cert.Sage.layerMul (V3 m ρ c main_v36) (V3 m ρ c main_v12) (V3 m ρ c main_v26) (V3 m ρ c main_v38) (V3 m ρ c main_v39) (V3 m ρ c main_v37) = _
  rw [V3_agg m ρ c, V3_inv m ρ c, V3_feat m ρ c, V3_wl m ρ c, V3_wr m ρ c, V3_bias m ρ c,
    W2_src m ρ c, W2_dst m ρ c, W2_out m ρ c, first_out m ρ c, W2_inv m ρ c, V1_inv m ρ c,
    W2_arg5 m ρ c, W2_arg6 m ρ c, W2_arg7 m ρ c]
  rfl

/-- The run, read: the result buffer ends at `result`, the arguments as launched. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (second_out m ρ c), (h c).2⟩)
    (Cert.KernelIdeal.ValueRun.run (F := Ideal) m ρ)

end Cert.KernelIdeal.Result

end
-- ==== Proof.RefLayer.lean ====
/-
  The reference program's result as two applications of one host layer.

  The host computes, per layer, the neighbour sum `nbrSum e h` (rows of `h` gathered at the edge sources, negative
  ids wrapped, and added into the rows named by the edge destinations), divides each row by the clamped degree
  `degClamp e`, applies the two weight matrices, adds the bias and clamps at zero: `hostLayer`. The run's result term
  is `hostLayer` of `nbrSum` of `hostLayer` of `nbrSum` of the features, syntactically; and `hostLayer`, read at a row and a
  column over the extended reals, is `Sage.layerAt`. The gather and the scatter are never opened.
-/
import proofs.«425203_j3289944948994_4_alg».proof.Proof.Gen.ReferenceIdeal.Run
import proofs.«425203_j3289944948994_4_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators
open Idealize.ShloMosaic Idealize.ShloMosaic.TcCoe Idealize.SL.Sem Idealize.ShloMosaic.StableHlo
open Idealize.ShloMosaic.ValueIdx

namespace Cert.ReferenceIdeal.Layer

open Cert.ReferenceIdeal Cert.ReferenceIdeal.Gen

variable {F : FTy → Type} [FloatOps F]

/-- Row `r` of the edge list as a vector of node ids. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The edge sources as a column of gather indices, a negative id wrapped by the node count. -/
def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The edge destinations as a column of scatter indices. -/
def dstCol (e : (⟨S2x1600000, .i32⟩ : BufTy).Contents (Elt F)) : (⟨S1600000x1, .i32⟩ : BufTy).Contents (Elt F) :=
  broadcastInDim S1600000x1 ![0] bcast_S1600000_S1600000x1_0 (edgeRow1 e)

/-- The neighbour sum: row `dst(j)` of the result collects row `src(j)` of `h` over the edges `j`. -/
def nbrSum (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 h (srcCol e))

/-- The in-degree of every node, clamped below by one. -/
def degClamp (e : (⟨S2x1600000, .i32⟩ : BufTy).Contents (Elt F)) : (⟨S100000, .f32⟩ : BufTy).Contents (Elt F) :=
  maximumf (Host.scatterAdd scatter_S100000_S1600000x1_S1600000_n_0_0_1
      (broadcastInDim S100000 ![] bcast_S_S100000 (constant S_ .f32 0x00000000#32)) (dstCol e)
      (broadcastInDim S1600000 ![] bcast_S_S1600000 (constant S_ .f32 0x3F800000#32)))
    (broadcastInDim S100000 ![] bcast_S_S100000 (constant S_ .f32 0x3F800000#32))

/-- One layer on the host: the aggregate divided row by row by `d`, through `wl`; the features through `wr`; the bias; the clamp at zero. -/
def hostLayer (agg : (⟨S100000x128, .f32⟩ : BufTy).Contents (Elt F)) (d : (⟨S100000, .f32⟩ : BufTy).Contents (Elt F))
    (x : (⟨S100000x128, .f32⟩ : BufTy).Contents (Elt F)) (wl wr : (⟨S128x128, .f32⟩ : BufTy).Contents (Elt F))
    (b : (⟨S128, .f32⟩ : BufTy).Contents (Elt F)) : (⟨S100000x128, .f32⟩ : BufTy).Contents (Elt F) :=
  maximumf (addf (addf
      (Host.dotGeneral dot_S100000x128_S128x128_S100000x128_1_0_0_1_n_n none
        (Host.divf agg (broadcastInDim S100000x128 ![0, 1] bcast_S100000x1_S100000x128_0_1 (broadcastInDim S100000x1 ![0] bcast_S100000_S100000x1_0 d))) wl)
      (Host.dotGeneral dot_S100000x128_S128x128_S100000x128_1_0_0_1_n_n none x wr))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The first layer's output on the host. -/
def hidden (m : (ℓ : Loc nD τ sig) → Buf (Elt F) ℓ) (c : Dev nD) : (⟨S100000x128, .f32⟩ : BufTy).Contents (Elt F) :=
  hostLayer (nbrSum (m ((c.tc : Thread nD τ).loc main_arg1)) (m ((c.tc : Thread nD τ).loc main_arg0)))
    (degClamp (m ((c.tc : Thread nD τ).loc main_arg1))) (m ((c.tc : Thread nD τ).loc main_arg0))
    (m ((c.tc : Thread nD τ).loc main_arg2)) (m ((c.tc : Thread nD τ).loc main_arg3)) (m ((c.tc : Thread nD τ).loc main_arg4))

set_option maxRecDepth 8192 in
/-- The run's result term is the second layer over the first. -/
theorem res_eq (m : (ℓ : Loc nD τ sig) → Buf (Elt F) ℓ) (c : Dev nD) :
    Cert.ReferenceIdeal.Value.res_main_v55 m c
      = hostLayer (nbrSum (m ((c.tc : Thread nD τ).loc main_arg1)) (hidden m c))
          (degClamp (m ((c.tc : Thread nD τ).loc main_arg1))) (hidden m c)
          (m ((c.tc : Thread nD τ).loc main_arg5)) (m ((c.tc : Thread nD τ).loc main_arg6)) (m ((c.tc : Thread nD τ).loc main_arg7)) := by
  unfold Cert.ReferenceIdeal.Value.res_main_v55 hidden hostLayer nbrSum degClamp srcCol dstCol edgeRow0 edgeRow1
  rfl

/-! ## The host's matrix product at a row and a column -/

theorem lhs_ax0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_ax1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_ax0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_ax1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (p, q) of the host's product is the sum over `k` of row `p` of the left operand against column `q` of the right. -/
theorem dot_apply (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The clamped degree broadcast over a row's columns reads the row's degree. -/
theorem degBcast_apply (d : FVec Ideal S100000 .f32) (p : Fin 100000) (k : Fin 128) :
    broadcastInDim S100000x128 ![0, 1] bcast_S100000x1_S100000x128_0_1 (broadcastInDim S100000x1 ![0] bcast_S100000_S100000x1_0 d) (ix2 p k) = d (ix1 p) := by
  rw [broadcastInDim_apply _ bcast_S100000x1_S100000x128_0_1 _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])]
  exact broadcastInDim_apply _ bcast_S100000_S100000x1_0 d (ix2 p (0 : Fin 1)) (ix1 p) (fun a => match a with
    | ⟨0, _⟩ => by show p.val = if (100000 : Nat) = 1 then 0 else p.val; rw [if_neg (by decide)])

/-- The bias broadcast over the rows reads the column's bias. -/
theorem biasBcast_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  rw [broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The host layer at a row and a column is the specification's. -/
theorem hostLayer_apply (agg : FVec Ideal S100000x128 .f32) (d : FVec Ideal S100000 .f32) (x : FVec Ideal S100000x128 .f32)
    (wl wr : FVec Ideal S128x128 .f32) (b : FVec Ideal S128 .f32) (p : Fin 100000) (q : Fin 128) :
    hostLayer (F := Ideal) agg d x wl wr b (ix2 p q) = Cert.Sage.layerAt agg d x wl wr b p q := by
  unfold hostLayer Cert.Sage.layerAt
  rw [maximumf_apply, addf_apply, addf_apply, dot_apply, dot_apply, biasBcast_apply, broadcastInDim_scalar_apply, constant_apply,
    Ideal.ofBits_zero_f32]
  congr 2
  congr 1
  refine Finset.sum_congr rfl fun k _ => ?_
  rw [hostDivf_apply, degBcast_apply]

/-- The host layer is the specification's layer. -/
theorem hostLayer_eq (agg : FVec Ideal S100000x128 .f32) (d : FVec Ideal S100000 .f32) (x : FVec Ideal S100000x128 .f32)
    (wl wr : FVec Ideal S128x128 .f32) (b : FVec Ideal S128 .f32) :
    hostLayer (F := Ideal) agg d x wl wr b = Cert.Sage.layer agg d x wl wr b := by
  funext i
  obtain ⟨p, q, rfl⟩ : ∃ (p : Fin 100000) (q : Fin 128), i = ix2 p q := ⟨i 0, i 1, eq_ix2 i⟩
  exact hostLayer_apply agg d x wl wr b p q

end Cert.ReferenceIdeal.Layer

end
-- ==== Proof.Bridge.lean ====
/-
  The kernel's two row-tiled layers are the reference's two host layers.

  At the ideal values the kernel's layer multiplies each aggregated entry by one over the clamped degree where the host divides
  by the clamped degree; the clamped degree is at least one, hence not zero, and then `a · (1 / d) = a / d` for every extended
  real `a`. Narrowing the weights to bfloat16 is the identity there, and the bias row is the bias. Both programs build the
  neighbour sum and the degree from the same gather and scatter records over the same edge rows, so those terms are equal as
  they stand and are never opened.
-/
import proofs.«425203_j3289944948994_4_alg».proof.Proof.KValue
import proofs.«425203_j3289944948994_4_alg».proof.Proof.RefLayer
import Idealize.ShloMosaic.Lib.Pipeline.Value
import Idealize.ShloMosaic.Lib.ValueIdx
import Idealize.ShloMosaic.Lib.ValueLayout
import Idealize.ShloMosaic.Lib.IdealHost

noncomputable section

open scoped BigOperators
open Idealize.ShloMosaic Idealize.ShloMosaic.TcCoe Idealize.SL.Sem
open Idealize.ShloMosaic.ValueIdx

namespace Cert.Proof.Bridge

open Cert.KernelIdeal Cert.KernelIdeal.Gen Cert.KernelIdeal.Host Cert.KernelIdeal.Result

/-- Narrowing a weight matrix changes nothing at the ideal values. -/
theorem narrow_eq (w : (⟨S128x128, .f32⟩ : BufTy).Contents (Elt Ideal)) : narrow (F := Ideal) w = w := rfl

/-- The reciprocal-degree column at row `r` is one over the degree at `r`. -/
theorem invDegCol_apply (d : (⟨S100000, .f32⟩ : BufTy).Contents (Elt Ideal)) (r : Fin 100000) :
    invDegCol (F := Ideal) d (ix2 r (0 : Fin 1)) = Ideal.div 1 (d (ix1 r)) := by
  unfold invDegCol
  rw [shapeCast_apply _ shapeCasts_S100000_S100000x1 (ix2 r (0 : Fin 1)) (ix1 r) (by
    rw [Shape.rowMajor_val_two, Shape.rowMajor_val_one]
    show r.val = r.val * 1 + 0
    omega)]
  rw [hostDivf_apply, broadcastInDim_scalar_apply, constant_apply, Ideal.ofBits_one_f32]

/-- The clamped degree is never zero. -/
theorem degClampRows_ne_zero (dst : (⟨S1600000, .i32⟩ : BufTy).Contents (Elt Ideal)) (r : Fin 100000) :
    degClampRows (F := Ideal) dst (ix1 r) ≠ 0 := by
  unfold degClampRows
  rw [maximumf_apply, broadcastInDim_scalar_apply, constant_apply, Ideal.ofBits_one_f32]
  exact Cert.Sage.max_one_ne_zero _

/-- The bias row at column `c` is the bias at `c`. -/
theorem biasRow_apply (b : (⟨S128, .f32⟩ : BufTy).Contents (Elt Ideal)) (c : Fin 128) :
    biasRow (F := Ideal) b (ix2 (0 : Fin 1) c) = b (ix1 c) := by
  unfold biasRow
  exact shapeCast_a_1a_apply b _ 0 c

/-- The kernel's row-tiled layer is the specification's layer of the neighbour sum and the clamped degree. -/
theorem tiledLayer_eq (e : (⟨S2x1600000, .i32⟩ : BufTy).Contents (Elt Ideal)) (h : (⟨S100000x128, .f32⟩ : BufTy).Contents (Elt Ideal))
    (wl wr : (⟨S128x128, .f32⟩ : BufTy).Contents (Elt Ideal)) (b : (⟨S128, .f32⟩ : BufTy).Contents (Elt Ideal)) :
    tiledLayer e h wl wr b
      = Cert.Sage.layer (nbrSumRows (edgeRow0 e) (edgeRow1 e) h) (degClampRows (edgeRow1 e)) h wl wr b := by
  unfold tiledLayer
  rw [narrow_eq, narrow_eq]
  exact Cert.Sage.layerMul_eq_layer _ _ _ _ _ _ _ _ (invDegCol_apply _) (degClampRows_ne_zero _) (biasRow_apply b)

/-- The two programs' neighbour sums are one term. -/
theorem nbrSum_eq (e : (⟨S2x1600000, .i32⟩ : BufTy).Contents (Elt Ideal)) (h : (⟨S100000x128, .f32⟩ : BufTy).Contents (Elt Ideal)) :
    nbrSumRows (F := Ideal) (edgeRow0 e) (edgeRow1 e) h = Cert.ReferenceIdeal.Layer.nbrSum (F := Ideal) e h := rfl

/-- The two programs' clamped degrees are one term. -/
theorem degClamp_eq (e : (⟨S2x1600000, .i32⟩ : BufTy).Contents (Elt Ideal)) :
    degClampRows (F := Ideal) (edgeRow1 e) = Cert.ReferenceIdeal.Layer.degClamp (F := Ideal) e := rfl

/-- One layer: the host's is the kernel's. -/
theorem layer_eq (e : (⟨S2x1600000, .i32⟩ : BufTy).Contents (Elt Ideal)) (h : (⟨S100000x128, .f32⟩ : BufTy).Contents (Elt Ideal))
    (wl wr : (⟨S128x128, .f32⟩ : BufTy).Contents (Elt Ideal)) (b : (⟨S128, .f32⟩ : BufTy).Contents (Elt Ideal)) :
    Cert.ReferenceIdeal.Layer.hostLayer (F := Ideal) (Cert.ReferenceIdeal.Layer.nbrSum e h) (Cert.ReferenceIdeal.Layer.degClamp e) h wl wr b
      = tiledLayer e h wl wr b := by
  rw [Cert.ReferenceIdeal.Layer.hostLayer_eq, tiledLayer_eq, nbrSum_eq, degClamp_eq]

end Cert.Proof.Bridge

end
-- ==== Proof.lean ====
/-
  A two-layer GraphSAGE network with mean aggregation: the Pallas program against its jnp reference, over the extended reals.

  Per layer both programs form the neighbour sum `agg` (rows of the features gathered at the edge sources and added into the
  rows of the edge destinations) and the in-degree `deg` by the same host gather and scatter. The reference then computes
  `relu((agg / max(deg, 1)) · Wl + x · Wr + b)` on the host; the kernel computes `1 / max(deg, 1)` once on the host and, in a
  launch tiled over 20 blocks of 5000 rows, `relu((agg · inv) · Wl + x · Wr + b)` with the weights narrowed to bfloat16, which
  is the identity at the ideal values. Since `max(deg, 1) ≥ 1` is not zero, `a · (1 / d) = a / d` for every extended real
  `a`, so the two layers agree entry by entry, whatever the inputs: the finiteness of the inputs is not used.

  Proof/Spec.lean states the layer; Proof/RefLayer.lean reads the reference's run as two host layers; Proof/KBody.lean reads
  a grid point's stored block, Proof/KRegion0.lean and Proof/KRegion1.lean each launch's result array, Proof/KHost.lean the
  host stretches, Proof/KRun.lean and Proof/KValue.lean the program's run and result; Proof/Bridge.lean joins the two sides.
-/
import proofs.«425203_j3289944948994_4_alg».proof.Defs
import proofs.«425203_j3289944948994_4_alg».proof.Proof.Gen.Kernel
import proofs.«425203_j3289944948994_4_alg».proof.Proof.Gen.Kernel.Skeleton
import proofs.«425203_j3289944948994_4_alg».proof.Proof.Gen.Kernel.Launch
import proofs.«425203_j3289944948994_4_alg».proof.Proof.Gen.Kernel.Points
import proofs.«425203_j3289944948994_4_alg».proof.Proof.Gen.Kernel.Frame
import proofs.«425203_j3289944948994_4_alg».proof.Proof.Gen.KernelIdeal
import proofs.«425203_j3289944948994_4_alg».proof.Proof.Gen.KernelIdeal.Skeleton
import proofs.«425203_j3289944948994_4_alg».proof.Proof.Gen.KernelIdeal.Launch
import proofs.«425203_j3289944948994_4_alg».proof.Proof.Gen.KernelIdeal.Points
import proofs.«425203_j3289944948994_4_alg».proof.Proof.Gen.KernelIdeal.Frame
import proofs.«425203_j3289944948994_4_alg».proof.Proof.Gen.ReferenceIdeal
import proofs.«425203_j3289944948994_4_alg».proof.Proof.Gen.ReferenceIdeal.Run
import proofs.«425203_j3289944948994_4_alg».proof.Proof.Gen.Pre_finite_inputs
import proofs.«425203_j3289944948994_4_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's two row-tiled
    layers, which are the reference's two host layers. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Layer.res_eq]
  unfold Cert.ReferenceIdeal.Layer.hidden
  rw [a0, a1, a2, a3, a4, a5, a6, a7, Cert.Proof.Bridge.layer_eq, Cert.Proof.Bridge.layer_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
